-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S1x1 : Shape := ⟨2, ![1, 1]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 5
  | .vmem => 3
  | .smem => 0
  | _ => 0

abbrev bufTy : (tb : Table) → Fin (tcTables nBuf tb) → BufTy
  | .hbm, ⟨0, _⟩ => ⟨S64x1024x1024, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S1024x1024 : Shape := ⟨2, ![1024, 1024]⟩
abbrev S_ : Shape := ⟨0, ![]⟩
abbrev S64 : Shape := ⟨1, ![64]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .hbm, ⟨2, _⟩ => ⟨S1024x1024, .i32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S_, .f32⟩
  | .hbm, ⟨9, _⟩ => ⟨S64x1024x1024, .f32⟩
  | .hbm, ⟨10, _⟩ => ⟨S64x1024x1024, .i1⟩
  | .hbm, ⟨11, _⟩ => ⟨S64x1024x1024, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst : Ref sig .tc := ⟨.hbm, 8, rfl⟩
abbrev main_call0_v5 : Ref sig .tc := ⟨.hbm, 9, rfl⟩
abbrev main_call0_call0_v0 : Ref sig .tc := ⟨.hbm, 10, rfl⟩
abbrev main_call0_v6 : Ref sig .tc := ⟨.hbm, 11, rfl⟩
abbrev main_call0_cst_0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S64x1024x1024 : S_.BroadcastsInDim S64x1024x1024 (![] : Fin 0 → Fin S64x1024x1024.rank)
  bcast_S1024x1024_S64x1024x1024_1_2 : S1024x1024.BroadcastsInDim S64x1024x1024 (![1, 2] : Fin 2 → Fin S64x1024x1024.rank)
  reducesTo_S64x1024x1024_S64_d1_2 : S64x1024x1024.ReducesTo [1, 2] S64
  h_S_ : 0 < S_.numel
  reducesTo_S64_S_d0 : S64.ReducesTo [0] S_
  reducesTo_S64x1024x1024_S_d0_1_2 : S64x1024x1024.ReducesTo [0, 1, 2] S_
  dot_S64x1024x1024_S64x1024x1024_S64x1024x1024_2_2_1_1_0_0_wf : DotDims.WF S64x1024x1024 S64x1024x1024 S64x1024x1024 [2] [2] [1] [1] [0] [0]

variable [Facts₀]

def dot_S64x1024x1024_S64x1024x1024_S64x1024x1024_2_2_1_1_0_0 : DotDims S64x1024x1024 S64x1024x1024 S64x1024x1024 where
  lhsContracting := [2]
  rhsContracting := [2]
  lhsNonContracting := [1]
  rhsNonContracting := [1]
  lhsBatch := [0]
  rhsBatch := [0]
  wf := dot_S64x1024x1024_S64x1024x1024_S64x1024x1024_2_2_1_1_0_0_wf

class Facts : Prop extends Facts₀ where

variable [Facts]
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.OffDiagonal.lean ====
import Idealize.ShloMosaic.PureOps.Ideal
import Idealize.ShloMosaic.Lib.ValueIdx
import proofs.«146418_j37520834298330_1_alg».proof.Proof.LibReal

/-!
  The off-diagonal mass of a batch of Gram matrices.

  For a batch `x[b]` of square matrices the Gram matrix of block `b` is `g[b] = x[b] · x[b]ᵀ`,
  `g[b](i, j) = Σ_k x[b](i, k) · x[b](j, k)`.  Its off-diagonal mass is the sum of all its entries
  minus its trace.  Two ways of adding the masses of all blocks are compared here:

  * block by block: `Σ_b ((Σ_{i,j} g[b](i, j)) - Σ_i g[b](i, i))`, accumulated in block order from zero;
  * all at once: `(Σ_{b,i,j} g[b](i, j)) - Σ_{b,i,j} [i = j] · g[b](i, j)`, the trace taken by masking
    the off-diagonal entries with zero.

  On the extended reals a sum may be regrouped and reordered freely, but a difference of sums is the sum
  of the differences only where the terms are real numbers (`⊤ - ⊤` has a conventional value), so the
  comparison is stated for real entries.
-/

open scoped BigOperators

noncomputable section

namespace Cert.OffDiagonal

open Idealize.ShloMosaic Idealize.ShloMosaic.ValueIdx Cert.LibReal

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The mass of one matrix and of a batch -/

/-- The off-diagonal mass of a square matrix: the sum of its entries minus its trace. -/
def offDiag {N : Nat} (g : Fin N → Fin N → EReal) : EReal := (∑ i, ∑ j, g i j) - ∑ i, g i i

/-- The trace as a masked double sum: only the diagonal entries survive the mask. -/
theorem sum_diag_mask {N : Nat} (g : Fin N → Fin N → EReal) :
    ∑ i, ∑ j, (if i = j then g i j else 0) = ∑ i, g i i :=
  Finset.sum_congr rfl fun i _ => by
    rw [Finset.sum_ite_eq Finset.univ i (fun j => g i j), if_pos (Finset.mem_univ i)]

/-- Block by block or all at once: for real entries the masses of the blocks add up to the sum of all
    entries minus the sum of all masked entries. -/
theorem sum_offDiag {B N : Nat} (g : Fin B → Fin N → Fin N → EReal) (hg : ∀ b i j, IsReal (g b i j)) :
    ∑ b, offDiag (g b)
      = (∑ b, ∑ i, ∑ j, g b i j) - ∑ b, ∑ i, ∑ j, (if i = j then g b i j else 0) := by
  simp only [sum_diag_mask]
  choose r hr using hg
  have e : g = fun b i j => (r b i j : EReal) := funext fun b => funext fun i => funext fun j => hr b i j
  subst e
  simp only [offDiag, ← coe_sum, ← EReal.coe_sub]
  congr 1
  rw [Finset.sum_sub_distrib]

/-! ## The masses accumulated in block order -/

/-- The total of the first `n + 1` terms of a finite family, the terms taken in order (a term past the
    family's end counts as zero). -/
def upTo {B : Nat} (q : Fin B → EReal) (n : ℕ) : EReal :=
  ∑ b ∈ Finset.range (n + 1), (if h : b < B then q ⟨b, h⟩ else 0)

theorem upTo_zero {B : Nat} (q : Fin B → EReal) (h : 0 < B) : upTo q 0 = 0 + q ⟨0, h⟩ := by
  unfold upTo
  rw [Finset.sum_range_one, dif_pos h, zero_add]

theorem upTo_succ {B : Nat} (q : Fin B → EReal) (n : ℕ) (h : n + 1 < B) :
    upTo q (n + 1) = upTo q n + q ⟨n + 1, h⟩ := by
  unfold upTo
  rw [Finset.sum_range_succ _ (n + 1), dif_pos h]

/-- After the last term the running total is the whole sum. -/
theorem upTo_last {B : Nat} (q : Fin (B + 1) → EReal) : upTo q B = ∑ b, q b := by
  unfold upTo
  rw [← Fin.sum_univ_eq_sum_range (fun b => if h : b < B + 1 then q ⟨b, h⟩ else 0) (B + 1)]
  exact Finset.sum_congr rfl fun b _ => by rw [dif_pos b.isLt]

/-! ## The batch of this certificate: 64 blocks of 1024 × 1024 -/

/-- The Gram matrix of block `b` of `x`: `g(i, j) = Σ_k x(b, i, k) · x(b, j, k)`. -/
def gram (x : (⟨3, ![64, 1024, 1024]⟩ : Shape).Idx → EReal) (b : Fin 64) (i j : Fin 1024) : EReal :=
  ∑ k : Fin 1024, x (ix3 b i k) * x (ix3 b j k)

theorem gram_isReal {x : (⟨3, ![64, 1024, 1024]⟩ : Shape).Idx → EReal} (hx : ∀ i, IsReal (x i))
    (b : Fin 64) (i j : Fin 1024) : IsReal (gram x b i j) :=
  IsReal.sum _ _ fun _ _ => IsReal.mul (hx _) (hx _)

/-- The Gram matrix of ONE block given by itself (a leading unit axis). -/
def blockGram (v : (⟨3, ![1, 1024, 1024]⟩ : Shape).Idx → EReal) (i j : Fin 1024) : EReal :=
  ∑ k : Fin 1024, v (ix3 (0 : Fin 1) i k) * v (ix3 (0 : Fin 1) j k)

/-- The sum over all blocks of their off-diagonal masses: the quantity both programs divide by the
    number of blocks. -/
def totalMass (x : (⟨3, ![64, 1024, 1024]⟩ : Shape).Idx → EReal) : EReal := ∑ b : Fin 64, offDiag (gram x b)

/-- For real entries it is the sum of all Gram entries minus the sum of the masked ones. -/
theorem totalMass_eq {x : (⟨3, ![64, 1024, 1024]⟩ : Shape).Idx → EReal} (hx : ∀ i, IsReal (x i)) :
    totalMass x = (∑ b, ∑ i, ∑ j, gram x b i j) - ∑ b, ∑ i, ∑ j, (if i = j then gram x b i j else 0) :=
  sum_offDiag (gram x) (gram_isReal hx)

end Cert.OffDiagonal

end
-- ==== Proof.Payload.lean ====
import proofs.«146418_j37520834298330_1_alg».proof.Proof.Gen.KernelIdeal.Skeleton
import proofs.«146418_j37520834298330_1_alg».proof.Proof.OffDiagonal
import Idealize.ShloMosaic.PureOps.Ideal.Laws
import Idealize.ShloMosaic.Lib.ValueIdx
import Idealize.ShloMosaic.Lib.ValueLayout
import Idealize.ShloMosaic.Lib.Pipeline.Value

/-!
  What the kernel's body adds at one grid point, over the extended reals.

  The body loads one block `v` (a 1 × 1024 × 1024 slab), forms its Gram matrix on the matrix unit
  (`g(i, j) = Σ_k v(i, k) · v(j, k)`, the change of float format being the identity here), sums it row by
  row and then down the column of row sums, sums the squares `v(i, k)²` the same way (the Gram matrix's
  trace: `g(i, i) = Σ_k v(i, k)²`), and adds the difference to the (1, 1) cell it carries from the point
  before.  So the stored cell is `carried + ((Σ_i Σ_j g(i, j)) - Σ_i g(i, i))`: the block's off-diagonal mass
  added to the running total.
-/

open scoped BigOperators

noncomputable section

namespace Cert.KernelIdeal.Payload

open Cert.KernelIdeal Cert.KernelIdeal.Gen Idealize.ShloMosaic Idealize.ShloMosaic.ValueIdx Cert.OffDiagonal

/-! ## The matrix product's operand indices: (i, j), k ↦ (i, k) and (j, k) -/

theorem lhs_0 (j : S1024x1024.Idx) (k : dot_S1024x1024_S1024x1024_S1024x1024_1_1_0_0_n_n.contr.Idx) :
    (dot_S1024x1024_S1024x1024_S1024x1024_1_1_0_0_n_n.lhsIdx j k 0 : ℕ) = j 0 := by
  simp [DotDims.lhsIdx, dot_S1024x1024_S1024x1024_S1024x1024_1_1_0_0_n_n]; rfl
theorem lhs_1 (j : S1024x1024.Idx) (k : dot_S1024x1024_S1024x1024_S1024x1024_1_1_0_0_n_n.contr.Idx) :
    (dot_S1024x1024_S1024x1024_S1024x1024_1_1_0_0_n_n.lhsIdx j k 1 : ℕ) = k ⟨0, by decide⟩ := by
  simp [DotDims.lhsIdx, dot_S1024x1024_S1024x1024_S1024x1024_1_1_0_0_n_n]; rfl
theorem rhs_0 (j : S1024x1024.Idx) (k : dot_S1024x1024_S1024x1024_S1024x1024_1_1_0_0_n_n.contr.Idx) :
    (dot_S1024x1024_S1024x1024_S1024x1024_1_1_0_0_n_n.rhsIdx j k 0 : ℕ) = j 1 := by
  simp [DotDims.rhsIdx, dot_S1024x1024_S1024x1024_S1024x1024_1_1_0_0_n_n]; rfl
theorem rhs_1 (j : S1024x1024.Idx) (k : dot_S1024x1024_S1024x1024_S1024x1024_1_1_0_0_n_n.contr.Idx) :
    (dot_S1024x1024_S1024x1024_S1024x1024_1_1_0_0_n_n.rhsIdx j k 1 : ℕ) = k ⟨0, by decide⟩ := by
  simp [DotDims.rhsIdx, dot_S1024x1024_S1024x1024_S1024x1024_1_1_0_0_n_n]; rfl

/-- The product of a matrix with its own transpose, accumulated into zero, at (i, j): the inner product of rows i and j. -/
theorem matmul_self_apply (w : FVec Ideal S1024x1024 .bf16) (i j : Fin 1024) :
    matmul dot_S1024x1024_S1024x1024_S1024x1024_1_1_0_0_n_n none w w (constant S1024x1024 .f32 0x00000000#32) (ix2 i j)
      = ∑ k : Fin 1024, w (ix2 i k) * w (ix2 j k) := by
  refine (Ideal.matmul_constant_zero_apply dot_S1024x1024_S1024x1024_S1024x1024_1_1_0_0_n_n none w w (ix2 i j)).trans ?_
  rw [← Equiv.sum_comp (contrEquiv1 dot_S1024x1024_S1024x1024_S1024x1024_1_1_0_0_n_n 1024 rfl rfl).symm]
  refine Finset.sum_congr rfl fun k _ => ?_
  have el : dot_S1024x1024_S1024x1024_S1024x1024_1_1_0_0_n_n.lhsIdx (ix2 i j) ((contrEquiv1 dot_S1024x1024_S1024x1024_S1024x1024_1_1_0_0_n_n 1024 rfl rfl).symm k) = ix2 i k :=
    Shape.idx_ext₂ (lhs_0 _ _) ((lhs_1 _ _).trans (contrEquiv1_symm_val _ _ _ _ k))
  have er : dot_S1024x1024_S1024x1024_S1024x1024_1_1_0_0_n_n.rhsIdx (ix2 i j) ((contrEquiv1 dot_S1024x1024_S1024x1024_S1024x1024_1_1_0_0_n_n 1024 rfl rfl).symm k) = ix2 j k :=
    Shape.idx_ext₂ (rhs_0 _ _) ((rhs_1 _ _).trans (contrEquiv1_symm_val _ _ _ _ k))
  rw [el, er]

/-! ## The two-step total of a 1024 × 1024 array: along the rows, then down the column of row sums -/

/-- The sum along each row. -/
theorem rowSum_apply (w : FVec Ideal S1024x1024 .f32) (hφ : FKind.Formats .f32)
    (hacc : (0x00000000#32 : BitVec 32) = FKind.add.neutral .f32 hφ) (i : Fin 1024) :
    multiReduction .add [1] S1024 w 0x00000000#32 reduces_S1024x1024_S1024 hφ hacc (ix1 i) = ∑ j : Fin 1024, w (ix2 i j) := by
  refine (Ideal.multiReduction_add_single w 0x00000000#32 reduces_S1024x1024_S1024 hφ hacc (ix1 i)).trans ?_
  refine Finset.sum_congr rfl fun j _ => congrArg w ?_
  exact Shape.idx_ext₂ rfl rfl

/-- The sum down a column vector. -/
theorem colSum_apply (w : FVec Ideal S1024x1 .f32) (hφ : FKind.Formats .f32)
    (hacc : (0x00000000#32 : BitVec 32) = FKind.add.neutral .f32 hφ) (u : Fin 1) :
    multiReduction .add [0] S1 w 0x00000000#32 reduces_S1024x1_S1 hφ hacc (ix1 u) = ∑ i : Fin 1024, w (ix2 i u) := by
  refine (Ideal.multiReduction_add_single w 0x00000000#32 reduces_S1024x1_S1 hφ hacc (ix1 u)).trans ?_
  refine Finset.sum_congr rfl fun i _ => congrArg w ?_
  exact Shape.idx_ext₂ rfl rfl

/-- A vector of row sums stood up as a column reads row i at (i, 0). -/
theorem column_apply (r : FVec Ideal S1024 .f32) (i : Fin 1024) (u : Fin 1) :
    shapeCast S1024x1 r shapeCasts_S1024_S1024x1 (ix2 i u) = r (ix1 i) :=
  shapeCast_apply r shapeCasts_S1024_S1024x1 _ _ (by
    rw [Shape.rowMajor_val_one, Shape.rowMajor_val_two]
    show i.val = i.val * 1 + u.val
    have := u.isLt
    omega)

/-- A one-element vector re-shaped to (1, 1) reads its one element everywhere. -/
theorem cell_apply (r : FVec Ideal S1 .f32) (y : S1x1.Idx) :
    shapeCast S1x1 r shapeCasts_S1_S1x1 y = r (ix1 (0 : Fin 1)) :=
  shapeCast_apply r shapeCasts_S1_S1x1 _ _ (by
    rw [Shape.rowMajor_val_one, Shape.rowMajor_val_two]
    show (0 : ℕ) = (y 0).val * 1 + (y 1).val
    have h0 : (y 0).val < 1 := (y 0).isLt
    have h1 : (y 1).val < 1 := (y 1).isLt
    omega)

/-- The total of a 1024 × 1024 array taken in the body's two steps, as a (1, 1) cell. -/
theorem total_apply (w : FVec Ideal S1024x1024 .f32) (hφ : FKind.Formats .f32)
    (hacc : (0x00000000#32 : BitVec 32) = FKind.add.neutral .f32 hφ) (y : S1x1.Idx) :
    shapeCast S1x1
        (multiReduction .add [0] S1
          (shapeCast S1024x1 (multiReduction .add [1] S1024 w 0x00000000#32 reduces_S1024x1024_S1024 hφ hacc) shapeCasts_S1024_S1024x1)
          0x00000000#32 reduces_S1024x1_S1 hφ hacc)
        shapeCasts_S1_S1x1 y
      = ∑ i : Fin 1024, ∑ j : Fin 1024, w (ix2 i j) := by
  refine (cell_apply _ y).trans ?_
  refine (colSum_apply _ hφ hacc 0).trans ?_
  refine Finset.sum_congr rfl fun i _ => ?_
  exact (column_apply _ i 0).trans (rowSum_apply w hφ hacc i)

/-! ## The body's stored cell -/

/-- The zero the first grid point resets the cell to. -/
theorem pay1_apply (y : S1x1.Idx) : (k0_pay1 (F := Ideal)) y = 0 := by
  show Ideal.ofBits .f32 0x00000000#32 = 0
  exact Ideal.ofBits_zero_f32

/-- The cell the body stores: what it carried plus the off-diagonal mass of the loaded block's Gram matrix. -/
theorem pay2_apply (v : Vec Ideal S1x1024x1024 .f32) (xo : Vec Ideal S1x1 .f32) (y : S1x1.Idx) :
    k0_pay2 (F := Ideal) v xo y = xo y + offDiag (blockGram v) := by
  unfold k0_pay2
  simp only [shapeCast_self]
  show xo y + (_ - _) = _
  refine congrArg (xo y + ·) ?_
  unfold offDiag
  refine congrArg₂ (· - ·) ?_ ?_
  · refine (total_apply _ _ _ y).trans ?_
    refine Finset.sum_congr rfl fun i _ => Finset.sum_congr rfl fun j _ => ?_
    refine (matmul_self_apply _ i j).trans ?_
    refine Finset.sum_congr rfl fun k _ => ?_
    show shapeCast S1024x1024 v shapeCasts_S1x1024x1024_S1024x1024 (ix2 i k) * shapeCast S1024x1024 v shapeCasts_S1x1024x1024_S1024x1024 (ix2 j k) = _
    rw [shapeCast_1ab_ab_apply, shapeCast_1ab_ab_apply]
  · refine (total_apply _ _ _ y).trans ?_
    refine Finset.sum_congr rfl fun i _ => ?_
    unfold blockGram
    refine Finset.sum_congr rfl fun k _ => ?_
    show shapeCast S1024x1024 v shapeCasts_S1x1024x1024_S1024x1024 (ix2 i k) * shapeCast S1024x1024 v shapeCasts_S1x1024x1024_S1024x1024 (ix2 i k) = _
    rw [shapeCast_1ab_ab_apply]

end Cert.KernelIdeal.Payload

end
-- ==== Proof.KernelValue.lean ====
import proofs.«146418_j37520834298330_1_alg».proof.Defs
import proofs.«146418_j37520834298330_1_alg».proof.Proof.Gen.KernelIdeal.Frame
import proofs.«146418_j37520834298330_1_alg».proof.Proof.Payload
import Idealize.ShloMosaic.Lib.Pipeline.Value
import Idealize.ShloMosaic.Lib.StableHlo.Run
import Idealize.ShloMosaic.Lib.Tactic

/-!
  The kernel's result.

  The kernel walks the 64 blocks of `x` in order, one per grid point.  It keeps ONE (1, 1) cell for the
  whole walk: the first point resets it to zero, every point adds its block's off-diagonal mass (the
  sum of the block's Gram matrix minus its trace), and the cell is written back to the (1, 1) result
  array after the last point only.  The host then drops the two unit axes and divides by 64.

  Read over any float values, the cell after point `n` is the body's stored value of block `n` and of
  the cell after point `n - 1` (of the reset zero at `n = 0`): a chain, by induction on the point.  Read
  over the extended reals the chain is the running total of the blocks' masses, whose last value is the
  sum over all 64 blocks.
-/

open scoped BigOperators

noncomputable section

open Idealize.ShloMosaic Idealize.ShloMosaic.TcCoe Idealize.SL.Sem
open Idealize.ShloMosaic.Pipeline (Dat)

namespace Cert.KernelIdeal.Mass

open Cert.KernelIdeal Cert.KernelIdeal.Gen Idealize.ShloMosaic.ValueIdx Cert.OffDiagonal

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the cell -/

/-- A later point: over the cell `xo` of the point before, the body leaves its stored value of the loaded
    block `x` and of `xo` (its one store covers the cell; both loads read whole buffers). -/
theorem out_B (c : Dev nD) (i : grid0.Coords) (a1 : Memref sig .tc .vmem S1x1024x1024 .f32) (h1 : a1.IsWhole)
    (a2 : Memref sig .tc .vmem S1x1 .f32) (h2 : a2.IsWhole) (hc : ¬cond0_0 i) (x : Vec F S1x1024x1024 .f32) (xo : Vec F S1x1 .f32) :
    out0_B_1 c i a1 h1 a2 h2 hc x xo = k0_pay2 x xo := by
  unfold out0_B_1
  rw [View.read_writes_eq_canon _ _ _ (cover0_B_1 c i a1 h1 a2 h2 hc x xo)]
  unfold kernelRun0_B
  dsimp only
  sl_unfold_words
  rw [View.canon_unit_zero hz2]
  simp only [View.readAt_eq_ld, h1.read_unread, h2.read_unread, View.ld_unit_zero (S := S1x1024x1024) hz3,
    View.ld_unit_zero (S := S1x1) hz2]

/-- The first point: the body stores the zero, reads it back, and leaves its stored value of the loaded
    block and of that zero. -/
theorem out_A (c : Dev nD) (i : grid0.Coords) (a1 : Memref sig .tc .vmem S1x1024x1024 .f32) (h1 : a1.IsWhole)
    (a2 : Memref sig .tc .vmem S1x1 .f32) (h2 : a2.IsWhole) (hc : cond0_0 i) (x : Vec F S1x1024x1024 .f32) :
    out0_A_1 c i a1 h1 a2 h2 hc x = k0_pay2 x (k0_pay1 (F := F)) := by
  unfold out0_A_1
  rw [View.read_writes_eq_canon _ _ _ (cover0_A_1 c i a1 h1 a2 h2 hc x)]
  unfold kernelRun0_A
  dsimp only
  sl_unfold_words
  rw [View.canon_cons_unit_zero (S := S1x1) hz2, View.readCov_unit_zero (S := S1x1) _ hz2]
  simp only [View.readAt_eq_ld, h1.read_unread, View.ld_unit_zero (S := S1x1024x1024) hz3]

/-! ## The cell point by point -/

/-- The cell after point `n`: the body's stored value of block `n` over the cell after point `n - 1`, over
    the reset zero at the first point. -/
def chain (c : Dev nD) : (n : ℕ) → n < cfg0.N → Vec F S1x1 .f32
  | 0, h => k0_pay2 (iblk m c 0 ⟨0, h⟩) (k0_pay1 (F := F))
  | n + 1, h => k0_pay2 (iblk m c 0 ⟨n + 1, h⟩) (chain c n (Nat.lt_of_succ_lt h))

/-- The frame run's point-by-point contents of the output's staging buffer are that chain. -/
theorem outsAt_eq (c : Dev nD) : ∀ (n : ℕ) (h : n < cfg0.N), outsAt0 m c n h = chain m c n h
  | 0, h => (outsAt0_A m c ⟨0, h⟩ rfl).trans (out_A ..)
  | n + 1, h => by
    have hN : cfg0.N = 64 := N_0
    have hB : ¬(⟨n + 1, h⟩ : Fin cfg0.N).val % 64 = 0 := by dsimp only; omega
    rw [outsAt0_B m c ⟨n + 1, h⟩ hB, out_B]
    show k0_pay2 _ (outsAt0 m c n _) = k0_pay2 _ (chain m c n _)
    rw [outsAt_eq c n]

/-- The last grid point. -/
abbrev tLast : Fin cfg0.N := ⟨63, by rw [show cfg0.N = 64 from N_0]; decide⟩

/-- The cell after the last point, as contents of the (1, 1) result array. -/
abbrev cell (c : Dev nD) : Buf (Elt F) ((c : Thread nD τ).loc main_v0) := chain m c 63 tLast.isLt

/-- The one write-back, after the last point, writes the cell: the array's one block is the array. -/
theorem flushed_eq (c : Dev nD) (t : Fin cfg0.N) (hf : (cfg0.win 1).flush t = true) :
    (dats m 0 c).flushed 1 t = ((cfg0.win 1).blk t).view.read (Elt F) (cell m c) := by
  have hN : cfg0.N = 64 := N_0
  have h3 : t.val = 63 := by have := (flush0_1 t).mp hf; have := t.isLt; omega
  obtain rfl : t = tLast := Fin.ext h3
  show (cfg0.win 1).cut (grid0.coords tLast) ((dats m 0 c).after 1 tLast) = _
  rw [after0_1, outsAt_eq]
  have hz' : (fun a => win0_1.index tLast a * main_v0.ty.shape.size a) = fun _ => 0 := funext fun a => by fin_cases a <;> decide
  exact (Memref.read_access_unit_zero (Elt F) main_v0 hz' (fun a => by rw [congrFun hz' a]; simp) (cell m c)).symm

/-- So the result array ends holding the cell after the last point. -/
theorem final_o (c : Dev nD) : (dats m 0 c).arrAt 1 cfg0.N = cell m c :=
  (dats m 0 c).arrAt_eq_of_cover 1 (cell m c) (flushed_eq m c) fun i =>
    ⟨tLast, (flush0_1 tLast).mpr rfl, by
      show i ∈ ((View.whole main_v0).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-! ## The host's two lines after the region -/

/-- The program's result: the cell with its unit axes dropped, divided by 64. -/
def result (c : Dev nD) : FVec F S_ .f32 :=
  Host.divf (shapeCast S_ (cell m c) shapeCasts_S1x1_S_) (constant S_ .f32 0x42800000#32)

/-- The run, read: the result buffer at `result`, the argument unchanged. -/
theorem run : θ_run defs (onTc (τ := τ) (main (F := F))) ⟨m, fun _ => 0, ρ⟩ fun r => ∀ c : Dev nD,
      r.2.mem ((c : Thread nD τ).loc main_v2) = result m c
      ∧ r.2.mem ((c : Thread nD τ).loc main_arg0) = m ((c : Thread nD τ).loc main_arg0) :=
  (θ_run defs _ _).mono (fun _ h c => ⟨by
      refine ((h c).2 main_v2 (Pipeline.mem_restRefs_of main_v2 rfl (by decide))).trans ?_
      unfold Pipeline.afterTail₀
      show StableHlo.after hostOps1 _ (Proc.devRef .tc main_v2) = _
      after_results
      unfold result
      rw [Pipeline.withArrays_arr spec0 launch0.win.arr_inj c _ _ 1, final_o]
      rfl,
    ((h c).1 0).trans (((dats m 0 c).arrAt_in 0 rfl _).trans ((A_eq m c 0).trans (V_main_arg0 m c)))⟩)
    (run_main m ρ)

end Cert.KernelIdeal.Mass

/-! ## Over the extended reals: the running total of the blocks' masses -/

namespace Cert.KernelIdeal.Mass

open Cert.KernelIdeal Cert.KernelIdeal.Gen Idealize.ShloMosaic.ValueIdx Cert.OffDiagonal

variable (m : (ℓ : Loc nD τ sig) → Buf (Elt Ideal) ℓ)

/-- Where window 0's block sits at point `t`: block `t` along the batch axis, the whole of the other two. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block the body loads at point `t` is block `t` of `x`. -/
theorem iblk_apply (c : Dev nD) (t : Fin cfg0.N) (i k : Fin 1024) :
    (iblk m c 0 t : Vec Ideal S1x1024x1024 .f32) (ix3 (0 : Fin 1) i k)
      = m ((c : Thread nD τ).loc main_arg0) (ix3 (⟨t.val, lt_of_lt_of_eq t.isLt N_0⟩ : Fin 64) i k) := by
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [e0]; omega
  | ⟨1, _⟩ => show win0_0.index t 1 * 1024 + 1 * i.val = i.val; rw [e1]; omega
  | ⟨2, _⟩ => show win0_0.index t 2 * 1024 + 1 * k.val = k.val; rw [e2]; omega

/-- So its Gram matrix is block `t`'s. -/
theorem blockGram_iblk (c : Dev nD) (t : Fin cfg0.N) :
    blockGram (iblk m c 0 t : Vec Ideal S1x1024x1024 .f32)
      = gram (m ((c : Thread nD τ).loc main_arg0)) ⟨t.val, lt_of_lt_of_eq t.isLt N_0⟩ := by
  funext i j
  unfold blockGram gram
  exact Finset.sum_congr rfl fun k _ => by rw [iblk_apply, iblk_apply]

/-- The cell after point `n` holds the total mass of blocks `0 … n`. -/
theorem chain_apply (c : Dev nD) : ∀ (n : ℕ) (h : n < cfg0.N) (y : S1x1.Idx),
    chain m c n h y = upTo (fun b : Fin 64 => offDiag (gram (m ((c : Thread nD τ).loc main_arg0)) b)) n
  | 0, h, y => by
    show k0_pay2 (F := Ideal) _ _ y = _
    rw [Payload.pay2_apply, Payload.pay1_apply, blockGram_iblk, upTo_zero _ (by decide)]
  | n + 1, h, y => by
    show k0_pay2 (F := Ideal) _ _ y = _
    rw [Payload.pay2_apply, chain_apply c n _ y, blockGram_iblk, upTo_succ _ n (lt_of_lt_of_eq h N_0)]

/-- The kernel's result over the extended reals: the total mass of all 64 blocks, divided by 64. -/
theorem result_apply (c : Dev nD) (j : S_.Idx) :
    result m c j = Ideal.div (totalMass (m ((c : Thread nD τ).loc main_arg0))) (Ideal.ofBits .f32 0x42800000#32) := by
  unfold result
  show Ideal.div (shapeCast S_ (cell m c) shapeCasts_S1x1_S_ j) (Ideal.ofBits .f32 0x42800000#32) = _
  refine congrArg (Ideal.div · (Ideal.ofBits .f32 0x42800000#32)) ?_
  unfold shapeCast
  exact (chain_apply m c 63 _ _).trans (upTo_last (B := 63) _)

end Cert.KernelIdeal.Mass

end
-- ==== Proof.RefRun.lean ====
import proofs.«146418_j37520834298330_1_alg».proof.Defs
import proofs.«146418_j37520834298330_1_alg».proof.Proof.Gen.ReferenceIdeal
import Idealize.ShloMosaic.Lib.StableHlo.Run

/-!
  The reference program's run.

  The reference computes, on the host, the Gram matrices of all blocks at once (one batched
  `dot_general`), their traces by masking the off-diagonal entries with zero and summing each block
  (the mask is `row index + 0 = column index` over a 1024 × 1024 grid of indices, broadcast along the
  batch), the sum of the traces, the sum of all Gram entries, their difference, and its quotient by 64.
  Its program is a straight line of twenty operations once the two outlined functions (the trace and the
  select inside it) are unfolded at their calls; every weakly fair execution ends with the result buffer
  at that composed term of the argument and the argument unchanged.
-/

noncomputable section

namespace Cert.ReferenceIdeal.HostRun

open Cert.ReferenceIdeal Cert.ReferenceIdeal.Gen Idealize.ShloMosaic Idealize.ShloMosaic.TcCoe Idealize.SL.Sem
  Idealize.ShloMosaic.StableHlo

variable {F : FTy → Type} [FloatOps F]

/-- The Gram matrices of all blocks: `g(b, i, j) = Σ_k x(b, i, k) · x(b, j, k)`. -/
def gramAll (x : FVec F S64x1024x1024 .f32) : FVec F S64x1024x1024 .f32 :=
  Host.dotGeneral dot_S64x1024x1024_S64x1024x1024_S64x1024x1024_2_2_1_1_0_0 none x x

/-- The diagonal of a 1024 × 1024 matrix as a mask: row index (plus zero) equals column index. -/
def diagMask : IVec S1024x1024 1 :=
  cmpi .eq (addi (iotaInDim S1024x1024 32 0) (broadcastInDim S1024x1024 ![] bcast_S_S1024x1024 (constantI S_ 32 0#32)))
    (iotaInDim S1024x1024 32 1)

/-- The Gram entries with everything off the diagonal replaced by zero. -/
def masked (x : FVec F S64x1024x1024 .f32) : FVec F S64x1024x1024 .f32 :=
  select (broadcastInDim S64x1024x1024 ![1, 2] bcast_S1024x1024_S64x1024x1024_1_2 diagMask) (gramAll x)
    (broadcastInDim S64x1024x1024 ![] bcast_S_S64x1024x1024 (constant S_ .f32 0x00000000#32))

/-- The trace of each block's Gram matrix. -/
def traces (x : FVec F S64x1024x1024 .f32) : FVec F S64 .f32 :=
  Host.reduceAdd (masked x) (constant S_ .f32 0x00000000#32) reducesTo_S64x1024x1024_S64_d1_2 h_S_

/-- The reference's result: (the sum of all Gram entries minus the sum of the traces) / 64. -/
def result (x : FVec F S64x1024x1024 .f32) : FVec F S_ .f32 :=
  Host.divf
    (subf (Host.reduceAdd (gramAll x) (constant S_ .f32 0x00000000#32) reducesTo_S64x1024x1024_S_d0_1_2 h_S_)
      (Host.reduceAdd (traces x) (constant S_ .f32 0x00000000#32) reducesTo_S64_S_d0 h_S_))
    (constant S_ .f32 0x42800000#32)

/-- The program's twenty operations, in order, the trace and its select unfolded at their calls. -/
abbrev ops : List (HloOp τ sig (Elt F)) :=
  [ binary main_arg0 main_arg0 main_v0 ((fun l r => Host.dotGeneral dot_S64x1024x1024_S64x1024x1024_S64x1024x1024_2_2_1_1_0_0 none l r) : (⟨S64x1024x1024, .f32⟩ : BufTy).Contents (Elt F) → (⟨S64x1024x1024, .f32⟩ : BufTy).Contents (Elt F) → (⟨S64x1024x1024, .f32⟩ : BufTy).Contents (Elt F)),
    TRef.nullary main_call0.v0 (iotaInDim S1024x1024 32 0),
    TRef.nullary main_call0.v1 (iotaInDim S1024x1024 32 1),
    TRef.nullary main_call0.c (constantI S_ 32 0#32),
    TRef.unary main_call0.c main_call0.v2 (broadcastInDim S1024x1024 ![] bcast_S_S1024x1024),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x1024x1024 ![] bcast_S_S64x1024x1024),
    TRef.unary main_call0.v4 main_call0.call0.v0 (broadcastInDim S64x1024x1024 ![1, 2] bcast_S1024x1024_S64x1024x1024_1_2),
    TRef.ternary main_call0.call0.v0 (.of main_v0) main_call0.v5 main_call0.call0.v1 select,
    TRef.nullary main_call0.cst_0 (constant S_ .f32 0x00000000#32),
    TRef.binary main_call0.call0.v1 main_call0.cst_0 main_call0.v7 (fun x v => Host.reduceAdd x v reducesTo_S64x1024x1024_S64_d1_2 h_S_),
    nullary main_cst (constant S_ .f32 0x00000000#32),
    binary main_v1 main_cst main_v2 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_0 (constant S_ .f32 0x00000000#32),
    binary main_v0 main_cst_0 main_v3 ((fun x v => Host.reduceAdd x v reducesTo_S64x1024x1024_S_d0_1_2 h_S_) : (⟨S64x1024x1024, .f32⟩ : BufTy).Contents (Elt F) → (⟨S_, .f32⟩ : BufTy).Contents (Elt F) → (⟨S_, .f32⟩ : BufTy).Contents (Elt F)),
    binary main_v3 main_v2 main_v4 (subf : (⟨S_, .f32⟩ : BufTy).Contents (Elt F) → (⟨S_, .f32⟩ : BufTy).Contents (Elt F) → (⟨S_, .f32⟩ : BufTy).Contents (Elt F)),
    nullary main_cst_1 (constant S_ .f32 0x42800000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

set_option maxRecDepth 1024 in
/-- The program is that straight line: the two functions' bodies unfolded at their calls, the sequencing
    reassociated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., nullary_bufs_sub .., nullary_bufs_sub .., unary_bufs_sub ..,
    binary_bufs_sub .., binary_bufs_sub .., nullary_bufs_sub .., unary_bufs_sub .., unary_bufs_sub ..,
    ternary_bufs_sub .., nullary_bufs_sub .., binary_bufs_sub .., nullary_bufs_sub .., binary_bufs_sub ..,
    nullary_bufs_sub .., binary_bufs_sub .., binary_bufs_sub .., nullary_bufs_sub .., binary_bufs_sub ..⟩

attribute [local irreducible] Host.reduceAdd in
/-- The fold of the operations at the result buffer is `result` of the argument. -/
theorem out_eq (V : Valuation τ sig (Elt F)) :
    after ops V (main_v5 : DevRef τ sig) = result (V (main_arg0 : DevRef τ sig)) := by
  simp only [after_cons, after_nil]
  rfl

attribute [local irreducible] Host.reduceAdd in
theorem arg0_eq (V : Valuation τ sig (Elt F)) :
    after ops V (main_arg0 : DevRef τ sig) = V (main_arg0 : DevRef τ sig) := by
  simp only [after_cons, after_nil]
  rfl

/-- On every device, for any float values, from any memory with zero counters: every weakly fair execution
    of the program terminates with the result buffer at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = result (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.HostRun

end
-- ==== Proof.RefValue.lean ====
import proofs.«146418_j37520834298330_1_alg».proof.Proof.RefRun
import proofs.«146418_j37520834298330_1_alg».proof.Proof.OffDiagonal
import Idealize.ShloMosaic.PureOps.Ideal.Laws
import Idealize.ShloMosaic.Lib.ValueIdx
import Idealize.ShloMosaic.Lib.Pipeline.Value
import Idealize.ShloMosaic.Lib.StableHlo.Predicate

/-!
  The reference's result over the extended reals.

  The batched product at (b, i, j) is the Gram entry `Σ_k x(b, i, k) · x(b, j, k)`.  The mask
  `row + 0 = column`, computed on 32-bit words from indices below 1024, is set exactly on the diagonal, so
  the selected array is the Gram entry where `i = j` and zero elsewhere.  The per-block traces summed
  over the blocks are one sum over every index of the selected array (each index belongs to exactly one
  block), and the other total is the sum over every index of the Gram array.  For real entries their
  difference is the sum of the blocks' off-diagonal masses, which the reference divides by 64.
-/

open scoped BigOperators

noncomputable section

namespace Cert.ReferenceIdeal.RefValue

open Cert.ReferenceIdeal Cert.ReferenceIdeal.Gen Cert.ReferenceIdeal.HostRun Idealize.ShloMosaic
  Idealize.ShloMosaic.ValueIdx Cert.OffDiagonal Cert.LibReal

/-- Two rank-3 indices with equal coordinates are equal. -/
theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

/-! ## The batched product's operand indices: (b, i, j), k ↦ (b, i, k) and (b, j, k) -/

theorem lhs_0 (j : S64x1024x1024.Idx) (k : dot_S64x1024x1024_S64x1024x1024_S64x1024x1024_2_2_1_1_0_0.contr.Idx) :
    (dot_S64x1024x1024_S64x1024x1024_S64x1024x1024_2_2_1_1_0_0.lhsIdx j k 0 : ℕ) = j 0 := by
  simp [DotDims.lhsIdx, dot_S64x1024x1024_S64x1024x1024_S64x1024x1024_2_2_1_1_0_0]; rfl
theorem lhs_1 (j : S64x1024x1024.Idx) (k : dot_S64x1024x1024_S64x1024x1024_S64x1024x1024_2_2_1_1_0_0.contr.Idx) :
    (dot_S64x1024x1024_S64x1024x1024_S64x1024x1024_2_2_1_1_0_0.lhsIdx j k 1 : ℕ) = j 1 := by
  simp [DotDims.lhsIdx, dot_S64x1024x1024_S64x1024x1024_S64x1024x1024_2_2_1_1_0_0]; rfl
theorem lhs_2 (j : S64x1024x1024.Idx) (k : dot_S64x1024x1024_S64x1024x1024_S64x1024x1024_2_2_1_1_0_0.contr.Idx) :
    (dot_S64x1024x1024_S64x1024x1024_S64x1024x1024_2_2_1_1_0_0.lhsIdx j k 2 : ℕ) = k ⟨0, by decide⟩ := by
  simp [DotDims.lhsIdx, dot_S64x1024x1024_S64x1024x1024_S64x1024x1024_2_2_1_1_0_0]; rfl
theorem rhs_0 (j : S64x1024x1024.Idx) (k : dot_S64x1024x1024_S64x1024x1024_S64x1024x1024_2_2_1_1_0_0.contr.Idx) :
    (dot_S64x1024x1024_S64x1024x1024_S64x1024x1024_2_2_1_1_0_0.rhsIdx j k 0 : ℕ) = j 0 := by
  simp [DotDims.rhsIdx, dot_S64x1024x1024_S64x1024x1024_S64x1024x1024_2_2_1_1_0_0]; rfl
theorem rhs_1 (j : S64x1024x1024.Idx) (k : dot_S64x1024x1024_S64x1024x1024_S64x1024x1024_2_2_1_1_0_0.contr.Idx) :
    (dot_S64x1024x1024_S64x1024x1024_S64x1024x1024_2_2_1_1_0_0.rhsIdx j k 1 : ℕ) = j 2 := by
  simp [DotDims.rhsIdx, dot_S64x1024x1024_S64x1024x1024_S64x1024x1024_2_2_1_1_0_0]; rfl
theorem rhs_2 (j : S64x1024x1024.Idx) (k : dot_S64x1024x1024_S64x1024x1024_S64x1024x1024_2_2_1_1_0_0.contr.Idx) :
    (dot_S64x1024x1024_S64x1024x1024_S64x1024x1024_2_2_1_1_0_0.rhsIdx j k 2 : ℕ) = k ⟨0, by decide⟩ := by
  simp [DotDims.rhsIdx, dot_S64x1024x1024_S64x1024x1024_S64x1024x1024_2_2_1_1_0_0]; rfl

/-- The batched product at (b, i, j) is the Gram entry of block b. -/
theorem gramAll_apply (x : FVec Ideal S64x1024x1024 .f32) (b : Fin 64) (i j : Fin 1024) :
    gramAll x (ix3 b i j) = gram x b i j := by
  unfold gramAll gram
  refine (Ideal.dotGeneral_apply dot_S64x1024x1024_S64x1024x1024_S64x1024x1024_2_2_1_1_0_0 none .single x x (ix3 b i j)).trans ?_
  rw [← Equiv.sum_comp (contrEquiv1 dot_S64x1024x1024_S64x1024x1024_S64x1024x1024_2_2_1_1_0_0 1024 rfl rfl).symm]
  refine Finset.sum_congr rfl fun k _ => ?_
  have el : dot_S64x1024x1024_S64x1024x1024_S64x1024x1024_2_2_1_1_0_0.lhsIdx (ix3 b i j) ((contrEquiv1 dot_S64x1024x1024_S64x1024x1024_S64x1024x1024_2_2_1_1_0_0 1024 rfl rfl).symm k) = ix3 b i k :=
    idx_ext₃ (lhs_0 _ _) (lhs_1 _ _) ((lhs_2 _ _).trans (contrEquiv1_symm_val _ _ _ _ k))
  have er : dot_S64x1024x1024_S64x1024x1024_S64x1024x1024_2_2_1_1_0_0.rhsIdx (ix3 b i j) ((contrEquiv1 dot_S64x1024x1024_S64x1024x1024_S64x1024x1024_2_2_1_1_0_0 1024 rfl rfl).symm k) = ix3 b j k :=
    idx_ext₃ (rhs_0 _ _) (rhs_1 _ _) ((rhs_2 _ _).trans (contrEquiv1_symm_val _ _ _ _ k))
  rw [el, er]

/-! ## The mask is the diagonal -/

theorem diagMask_iff (i j : Fin 1024) : diagMask (ix2 i j) = 1#1 ↔ i = j := by
  unfold diagMask
  show IntOp.cmpi .eq (IntOp.addi (BitVec.ofNat 32 i.val) (0#32)) (BitVec.ofNat 32 j.val) = 1#1 ↔ _
  rw [StableHlo.Predicate.cmpi_eq_iff]
  show BitVec.ofNat 32 i.val + 0#32 = BitVec.ofNat 32 j.val ↔ _
  rw [BitVec.add_zero]
  have hi : i.val < 2 ^ 32 := lt_of_lt_of_le i.isLt (by norm_num)
  have hj : j.val < 2 ^ 32 := lt_of_lt_of_le j.isLt (by norm_num)
  constructor
  · intro h
    have e := congrArg BitVec.toNat h
    rw [BitVec.toNat_ofNat, BitVec.toNat_ofNat, Nat.mod_eq_of_lt hi, Nat.mod_eq_of_lt hj] at e
    exact Fin.ext e
  · rintro rfl; rfl

/-- The selected array: the Gram entry on the diagonal, zero off it. -/
theorem masked_apply (x : FVec Ideal S64x1024x1024 .f32) (b : Fin 64) (i j : Fin 1024) :
    masked x (ix3 b i j) = if i = j then gram x b i j else 0 := by
  unfold masked
  show Scalar.select (broadcastInDim S64x1024x1024 ![1, 2] bcast_S1024x1024_S64x1024x1024_1_2 diagMask (ix3 b i j))
    (gramAll x (ix3 b i j)) (Ideal.ofBits .f32 0x00000000#32) = _
  have hm : broadcastInDim S64x1024x1024 ![1, 2] bcast_S1024x1024_S64x1024x1024_1_2 diagMask (ix3 b i j) = diagMask (ix2 i j) :=
    congrArg diagMask (Shape.idx_ext₂ rfl rfl)
  rw [hm, gramAll_apply, Ideal.ofBits_zero_f32]
  unfold Scalar.select
  by_cases h : i = j
  · rw [if_pos h]; exact if_pos ((diagMask_iff i j).mpr h)
  · rw [if_neg h]; exact if_neg (fun e => h ((diagMask_iff i j).mp e))

/-! ## The three host sums -/

/-- The sum of every entry of a 64 × 1024 × 1024 array, from zero. -/
theorem sumAll_apply (v : FVec Ideal S64x1024x1024 .f32) (j : S_.Idx) :
    Host.reduceAdd (F := Ideal) v (constant S_ .f32 0x00000000#32) reducesTo_S64x1024x1024_S_d0_1_2 h_S_ j = ∑ i, v i := by
  show Ideal.hostReduceAdd reducesTo_S64x1024x1024_S_d0_1_2 v (Ideal.ofBits .f32 0x00000000#32) j = _
  rw [Ideal.hostReduceAdd_total _ (fun b => b.elim0), Ideal.ofBits_zero_f32, zero_add]

/-- The sum of a vector of 64 entries, from zero. -/
theorem sumBlocks_apply (w : FVec Ideal S64 .f32) (j : S_.Idx) :
    Host.reduceAdd (F := Ideal) w (constant S_ .f32 0x00000000#32) reducesTo_S64_S_d0 h_S_ j = ∑ i, w i := by
  show Ideal.hostReduceAdd reducesTo_S64_S_d0 w (Ideal.ofBits .f32 0x00000000#32) j = _
  rw [Ideal.hostReduceAdd_total _ (fun b => b.elim0), Ideal.ofBits_zero_f32, zero_add]

/-- Block by block and then over the blocks, or all at once: the traces add up to the sum of every
    entry of the selected array (each index lies in exactly one block). -/
theorem sum_traces (x : FVec Ideal S64x1024x1024 .f32) : ∑ jb, traces x jb = ∑ i, masked x i := by
  have e : ∀ jb, traces x jb
      = ∑ i ∈ Finset.univ.filter (fun i => reducesTo_S64x1024x1024_S64_d1_2.drop i = jb), masked x i := fun jb => by
    show Ideal.hostReduceAdd reducesTo_S64x1024x1024_S64_d1_2 (masked x) (Ideal.ofBits .f32 0x00000000#32) jb = _
    unfold Ideal.hostReduceAdd
    rw [Ideal.ofBits_zero_f32, zero_add]
  simp only [e]
  exact Finset.sum_fiberwise Finset.univ reducesTo_S64x1024x1024_S64_d1_2.drop (masked x)

/-- The reference's result for real entries: the total off-diagonal mass of the blocks, divided by 64. -/
theorem result_apply (x : FVec Ideal S64x1024x1024 .f32) (hx : ∀ i, IsReal (x i)) (j : S_.Idx) :
    result x j = Ideal.div (totalMass x) (Ideal.ofBits .f32 0x42800000#32) := by
  unfold result
  show Ideal.div (Host.reduceAdd (F := Ideal) (gramAll x) (constant S_ .f32 0x00000000#32) reducesTo_S64x1024x1024_S_d0_1_2 h_S_ j
      - Host.reduceAdd (F := Ideal) (traces x) (constant S_ .f32 0x00000000#32) reducesTo_S64_S_d0 h_S_ j) _ = _
  rw [sumAll_apply, sumBlocks_apply, sum_traces, totalMass_eq hx, sum_idx3, sum_idx3]
  simp only [gramAll_apply, masked_apply]
  rfl

end Cert.ReferenceIdeal.RefValue

end
-- ==== Proof.Finite.lean ====
import proofs.«146418_j37520834298330_1_alg».proof.Pre_finite_inputs
import proofs.«146418_j37520834298330_1_alg».proof.Proof.LibReal
import Idealize.ShloMosaic.Lib.ReduceAll
import Idealize.ShloMosaic.Lib.ValueIdx

/-!
  What the precondition says over the extended reals.

  The precondition is `all (|x| < +∞)`: an elementwise comparison of the absolute value with the f32
  pattern of plus infinity, reduced by `and` to one bit.  That bit being one makes every comparison one;
  `|x| = max x (-x)` is below `⊤` only when `x` is neither infinity, so every entry of `x` is a real number.
-/

noncomputable section

namespace Cert.Pre_finite_inputs.Finite

open Cert.Pre_finite_inputs Idealize.ShloMosaic Idealize.ShloMosaic.ValueIdx Cert.LibReal

instance : Subsingleton S_.Idx := ⟨fun _ _ => funext fun d => d.elim0⟩

/-- The f32 pattern `0x7F800000` is plus infinity. -/
theorem ofBits_inf : Ideal.ofBits .f32 0x7F800000#32 = ⊤ := by simp [Ideal.ofBits, Ideal.ieee]

/-- An ordered "less than" that came out one is the order of the extended reals. -/
theorem lt_of_cmp_olt {a b : EReal} (h : Ideal.cmp .olt a b = 1#1) : a < b := by
  unfold Ideal.cmp at h
  by_contra hn
  simp [hn] at h

/-- An extended real whose absolute value is below `⊤` is a real number. -/
theorem isReal_of_abs_lt_top {x : EReal} (h : max x (-x) < ⊤) : IsReal x := by
  induction x using EReal.rec with
  | bot => simp at h
  | coe r => exact ⟨r, rfl⟩
  | top => simp at h

/-- Under the precondition every entry of the input is a real number. -/
theorem isReal_of_pre [Facts] (x : FVec Ideal S64x1024x1024 .f32) (h : fn (F := Ideal) x = fun _ => 1#1)
    (i : S64x1024x1024.Idx) : IsReal (x i) := by
  have e := congrFun h ix0
  dsimp only [fn] at e
  have p := Host.reduce_andi_all _ _ _ _ _ e i
  have q : Ideal.cmp .olt (max (x i) (-(x i))) (Ideal.ofBits .f32 0x7F800000#32) = 1#1 := p
  rw [ofBits_inf] at q
  exact isReal_of_abs_lt_top (lt_of_cmp_olt q)

end Cert.Pre_finite_inputs.Finite

end
-- ==== Proof.lean ====
/-
  The off-diagonal mass of `x[b] · x[b]ᵀ` summed over 64 blocks of 1024 × 1024 and divided by 64: a kernel that
  walks the blocks one grid point at a time, against a host program that treats all blocks at once.

  Both compute Gram matrices `g[b](i, j) = Σ_k x[b](i, k) · x[b](j, k)`.  The kernel adds, block by block,
  the sum of `g[b]` minus the sum of the squares of `x[b]` — the trace, since `g[b](i, i) = Σ_k x[b](i, k)²` —
  into one cell it resets at the first block, and the host divides the cell by 64.  The reference sums every
  entry of every `g[b]`, sums the traces taken by masking the off-diagonal entries with zero, subtracts
  and divides by 64.

  Over the extended reals sums regroup freely, so the kernel's cell is `Σ_b (Σ_{i,j} g[b](i, j) - Σ_i g[b](i, i))`
  and the reference's numerator `Σ_{b,i,j} g[b](i, j) - Σ_{b,i,j} [i = j] · g[b](i, j)`.  The two agree when the
  terms are real numbers, which is what the precondition gives: every entry of `x` is finite, so every Gram
  entry is a finite sum of products of reals.  The same quotient by the same 64 is then applied to both.

  The modules: `OffDiagonal` (the arithmetic, no program), `Payload` (the kernel body's stored cell at one
  point), `KernelValue` (the cell point by point and the kernel's result), `RefRun` (the reference's run),
  `RefValue` (the reference's result), `Finite` (the precondition read as "every entry is real").
-/
import proofs.«146418_j37520834298330_1_alg».proof.Defs
import proofs.«146418_j37520834298330_1_alg».proof.Proof.Gen.Kernel
import proofs.«146418_j37520834298330_1_alg».proof.Proof.Gen.Kernel.Frame
import proofs.«146418_j37520834298330_1_alg».proof.Proof.Gen.KernelIdeal
import proofs.«146418_j37520834298330_1_alg».proof.Proof.Gen.KernelIdeal.Frame
import proofs.«146418_j37520834298330_1_alg».proof.Proof.Gen.ReferenceIdeal
import proofs.«146418_j37520834298330_1_alg».proof.Proof.Gen.Pre_finite_inputs
import proofs.«146418_j37520834298330_1_alg».proof.Proof.KernelValue
import proofs.«146418_j37520834298330_1_alg».proof.Proof.RefValue
import proofs.«146418_j37520834298330_1_alg».proof.Proof.Finite
import Idealize.ShloMosaic.Adequacy
import Idealize.ShloMosaic.Init

noncomputable section

namespace Cert.Proof

open Idealize.ShloMosaic Idealize.SL.Sem

/-- The kernel as printed runs and keeps its argument: the frame run over both cases of its body. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and never writes its argument. -/
theorem frame_ri : Cert.frame_ReferenceIdeal := fun m ρ _ =>
  (θ_run Cert.ReferenceIdeal.defs _ _).mono (fun _ h c => (h c).2) (Cert.ReferenceIdeal.HostRun.run (F := Ideal) m ρ)

/-- Nothing of the kernel was rewritten for the reading over the extended reals. -/
theorem preserves : Cert.preserves_Kernel_KernelIdeal := trivial

/-- Both programs end at the total off-diagonal mass of the blocks divided by 64: the kernel by its
    block-by-block accumulation, the reference by its two totals, equal because every entry is real. -/
theorem algebraic : Cert.algebraic_KernelIdeal_ReferenceIdeal := by
  intro m ρ m' ρ' hpre hagree
  refine ⟨fun c => Cert.KernelIdeal.Mass.result m c, Cert.KernelIdeal.Mass.run (F := Ideal) m ρ, ?_⟩
  refine (θ_run Cert.ReferenceIdeal.defs _ _).mono (fun _ h c => ⟨(h c).1.trans ?_, (h c).2⟩)
    (Cert.ReferenceIdeal.HostRun.run (F := Ideal) m' ρ')
  rw [hagree c]
  funext j
  rw [Cert.ReferenceIdeal.RefValue.result_apply _ (fun i => Cert.Pre_finite_inputs.Finite.isReal_of_pre _ (hpre c) i) j]
  exact (Cert.KernelIdeal.Mass.result_apply m c j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
